-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192 : Shape := ⟨1, ![8192]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192x2048 .f32) (main_arg5 : FVec F S8192 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  main_v28

def fn {F : FTy → Type} [FloatOps F] (main_arg0 : FVec F S8192x2048 .f32) (main_arg1 : FVec F S8192x2048 .f32) (main_arg2 : FVec F S8192x2048 .f32) (main_arg3 : FVec F S8192x2048 .f32) (main_arg4 : FVec F S8192x2048 .f32) (main_arg5 : FVec F S8192 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_v13 main_v16
-- ==== Kernel.lean ====
abbrev S8192x2048 : Shape := ⟨2, ![8192, 2048]⟩
abbrev S8192 : Shape := ⟨1, ![8192]⟩
abbrev S4x2048x2048 : Shape := ⟨3, ![4, 2048, 2048]⟩
abbrev S4x2048 : Shape := ⟨2, ![4, 2048]⟩
abbrev S512x2048 : Shape := ⟨2, ![512, 2048]⟩
abbrev S512x256 : Shape := ⟨2, ![512, 256]⟩
abbrev S4x256x2048 : Shape := ⟨3, ![4, 256, 2048]⟩
abbrev S4x256 : Shape := ⟨2, ![4, 256]⟩
abbrev S1x256x2048 : Shape := ⟨3, ![1, 256, 2048]⟩
abbrev S256x2048 : Shape := ⟨2, ![256, 2048]⟩
abbrev S2048x256 : Shape := ⟨2, ![2048, 256]⟩
abbrev S1x256 : Shape := ⟨2, ![1, 256]⟩
abbrev S256 : Shape := ⟨1, ![256]⟩

abbrev nBuf : Space → Nat
  | .hbm => 15
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192, .f32⟩
  | .hbm, ⟨6, _⟩ => ⟨S8192x2048, .bf16⟩
  | .hbm, ⟨7, _⟩ => ⟨S8192x2048, .bf16⟩
  | .hbm, ⟨8, _⟩ => ⟨S8192x2048, .bf16⟩
  | .hbm, ⟨9, _⟩ => ⟨S4x2048x2048, .bf16⟩
  | .hbm, ⟨10, _⟩ => ⟨S8192x2048, .bf16⟩
  | .hbm, ⟨11, _⟩ => ⟨S4x2048x2048, .bf16⟩
  | .hbm, ⟨12, _⟩ => ⟨S4x2048, .f32⟩
  | .hbm, ⟨13, _⟩ => ⟨S8192x2048, .f32⟩
  | .hbm, ⟨14, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x256, .f32⟩
  | .local _ .vmem, ⟨5, _⟩ => ⟨S512x256, .f32⟩
  | .local _ .vmem, ⟨6, _⟩ => ⟨S4x256x2048, .bf16⟩
  | .local _ .vmem, ⟨7, _⟩ => ⟨S4x256x2048, .bf16⟩
  | .local _ .vmem, ⟨8, _⟩ => ⟨S4x256x2048, .bf16⟩
  | .local _ .vmem, ⟨9, _⟩ => ⟨S4x256x2048, .bf16⟩
  | .local _ .vmem, ⟨10, _⟩ => ⟨S4x256, .f32⟩
  | .local _ .vmem, ⟨11, _⟩ => ⟨S4x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  shapeCasts_S8192x2048_S4x2048x2048 : S8192x2048.ShapeCasts S4x2048x2048
  shapeCasts_S8192_S4x2048 : S8192.ShapeCasts S4x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x256_S512x256_0_0 : ∀ a, (![0, 0] : Fin 2 → Nat) a + S512x256.size a ≤ S512x256.size a
  h_S512x256 : 0 < S512x256.numel
  inb_S4x256x2048_S1x256x2048_0_0_0 : ∀ a, (![0, 0, 0] : Fin 3 → Nat) a + S1x256x2048.size a ≤ S4x256x2048.size a
  h_S1x256x2048 : 0 < S1x256x2048.numel
  shapeCasts_S1x256x2048_S256x2048 : S1x256x2048.ShapeCasts S256x2048
  transposes_S256x2048_p1_0_S2048x256 : S256x2048.Transposes [1, 0] S2048x256
  inb_S4x256_S1x256_0_0 : ∀ a, (![0, 0] : Fin 2 → Nat) a + S1x256.size a ≤ S4x256.size a
  h_S1x256 : 0 < S1x256.numel
  shapeCasts_S1x256_S256 : S1x256.ShapeCasts S256
  shapeCasts_S256_S1x256 : S256.ShapeCasts S1x256
  broadcasts_S1x256_S512x256 : S1x256.Broadcasts S512x256
  inb_S4x256x2048_S1x256x2048_1_0_0 : ∀ a, (![1, 0, 0] : Fin 3 → Nat) a + S1x256x2048.size a ≤ S4x256x2048.size a
  inb_S4x256_S1x256_1_0 : ∀ a, (![1, 0] : Fin 2 → Nat) a + S1x256.size a ≤ S4x256.size a
  inb_S4x256x2048_S1x256x2048_2_0_0 : ∀ a, (![2, 0, 0] : Fin 3 → Nat) a + S1x256x2048.size a ≤ S4x256x2048.size a
  inb_S4x256_S1x256_2_0 : ∀ a, (![2, 0] : Fin 2 → Nat) a + S1x256.size a ≤ S4x256.size a
  inb_S4x256x2048_S1x256x2048_3_0_0 : ∀ a, (![3, 0, 0] : Fin 3 → Nat) a + S1x256x2048.size a ≤ S4x256x2048.size a
  inb_S4x256_S1x256_3_0 : ∀ a, (![3, 0] : Fin 2 → Nat) a + S1x256.size a ≤ S4x256.size a
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x2048.size a
  hwx0_2 : ∀ i : grid0.Coords, EltTy.bits .f32 = 32 ∨ (Rect.block (s := S8192x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256x2048.size a ≤ S4x2048x2048.size a
  hwx0_3 : ∀ i : grid0.Coords, EltTy.bits .bf16 = 32 ∨ (Rect.block (s := S4x2048x2048) S4x256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256x2048.size a ≤ S4x2048x2048.size a
  hwx0_4 : ∀ i : grid0.Coords, EltTy.bits .bf16 = 32 ∨ (Rect.block (s := S4x2048x2048) S4x256x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x2048.size a
  hwx0_5 : ∀ i : grid0.Coords, EltTy.bits .f32 = 32 ∨ (Rect.block (s := S4x2048) S4x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S8192x2048.size a
  hwx0_6 : ∀ i : grid0.Coords, EltTy.bits .f32 = 32 ∨ (Rect.block (s := S8192x2048) S512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S8192x2048.size a
  hwx0_7 : ∀ i : grid0.Coords, EltTy.bits .f32 = 32 ∨ (Rect.block (s := S8192x2048) S512x256.size (cc0_transform_7 i) (hinb0_7 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4x256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S4x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S512x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S512x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8192 : Shape := ⟨1, ![8192]⟩
abbrev S2048x8192 : Shape := ⟨2, ![2048, 8192]⟩
abbrev S8192x8192 : Shape := ⟨2, ![8192, 8192]⟩
abbrev S1x8192 : Shape := ⟨2, ![1, 8192]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192, .f32⟩
  | .hbm, ⟨6, _⟩ => ⟨S2048x8192, .f32⟩
  | .hbm, ⟨7, _⟩ => ⟨S8192x8192, .f32⟩
  | .hbm, ⟨8, _⟩ => ⟨S2048x8192, .f32⟩
  | .hbm, ⟨9, _⟩ => ⟨S8192x8192, .f32⟩
  | .hbm, ⟨10, _⟩ => ⟨S8192x8192, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  transposes_S8192x2048_S2048x8192_1_0 : S8192x2048.Transposes [1, 0] S2048x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x8192_S8192x2048_0_0 : S8192x8192.Slices ![0, 0] S8192x2048
  slices_S8192x8192_S8192x2048_0_2048 : S8192x8192.Slices ![0, 2048] S8192x2048
  slices_S8192x8192_S8192x2048_0_4096 : S8192x8192.Slices ![0, 4096] S8192x2048
  slices_S8192x8192_S8192x2048_0_6144 : S8192x8192.Slices ![0, 6144] S8192x2048
  bcast_S_S8192x2048 : S_.BroadcastsInDim S8192x2048 (![] : Fin 0 → Fin S8192x2048.rank)
  dot_S8192x2048_S2048x8192_S8192x8192_1_0_0_1_n_n_wf : DotDims.WF S8192x2048 S2048x8192 S8192x8192 [1] [0] [0] [1] [] []

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf

class Facts : Prop extends Facts₀ where

variable [Facts]
-- ==== Proof.Spec.lean ====
/-
  The LSTM cell with the input gate capped by the complement of the forget gate, as ONE function of the six
  argument arrays over the extended reals.

  With `x, h : [8192, 2048]` (the batch of inputs and of previous hidden states), `c : [8192, 2048]` (the
  previous cell states), the stacked weights `wih, whh : [4·2048, 2048]` and the stacked bias `b : [4·2048]`,
  the pre-activation of stacked gate column `n` for batch row `r` is

      gate r n = Σ_k x[r,k] · wih[n,k]  +  Σ_k h[r,k] · whh[n,k]  +  b[n]

  and, writing `n_g = g·2048 + j` for the column of gate `g ∈ {0,1,2,3}` (input, forget, candidate, output)
  at hidden unit `j`, with σ the logistic function,

      c'[r,j] = σ(gate r n_1) · c[r,j] + min (1 − σ(gate r n_1)) (σ(gate r n_0)) · tanh (gate r n_2)
      h'[r,j] = σ(gate r n_3) · tanh (c'[r,j]).

  Both programs compute exactly these sums and these operations, so no law of the extended reals beyond
  reading both sides at an index is needed, and the finiteness of the inputs is never used.
-/
import Idealize.ShloMosaic.PureOps.Ideal
import Idealize.ShloMosaic.PureOps.Ideal.Laws
import Idealize.ShloMosaic.Lib.ValueIdx

noncomputable section

namespace Cert.LstmSpec

open Idealize.ShloMosaic Idealize.ShloMosaic.ValueIdx

/-- A `[8192, 2048]` array of extended reals. -/
abbrev Mat : Type := (⟨2, ![8192, 2048]⟩ : Shape).Idx → EReal
/-- An `[8192]` array of extended reals. -/
abbrev Row : Type := (⟨1, ![8192]⟩ : Shape).Idx → EReal

/-- The pattern of `1.0` denotes the extended real `1`. -/
theorem ofBits_one : Ideal.ofBits .f32 0x3F800000#32 = 1 := by
  simp [Ideal.ofBits, Ideal.ieee, -EReal.coe_mul]; norm_num

/-- The stacked column of gate 0 (input) at hidden unit `j`. -/
def col0 (j : Fin 2048) : Fin 8192 := ⟨j.val, by omega⟩
/-- The stacked column of gate 1 (forget) at hidden unit `j`. -/
def col1 (j : Fin 2048) : Fin 8192 := ⟨2048 + j.val, by omega⟩
/-- The stacked column of gate 2 (candidate) at hidden unit `j`. -/
def col2 (j : Fin 2048) : Fin 8192 := ⟨4096 + j.val, by omega⟩
/-- The stacked column of gate 3 (output) at hidden unit `j`. -/
def col3 (j : Fin 2048) : Fin 8192 := ⟨6144 + j.val, by omega⟩

/-- The pre-activation of stacked gate column `n` for batch row `r`. -/
def gate (x h wih whh : Mat) (b : Row) (r n : Fin 8192) : EReal :=
  (∑ k : Fin 2048, x (ix2 r k) * wih (ix2 n k)) + (∑ k : Fin 2048, h (ix2 r k) * whh (ix2 n k)) + b (ix1 n)

/-- The new cell state from the three pre-activations it reads and the previous cell state. -/
def cellOf (gi gf gj cprev : EReal) : EReal :=
  Ideal.logistic gf * cprev + min (1 - Ideal.logistic gf) (Ideal.logistic gi) * Ideal.tanh gj

/-- The new hidden state from the output gate's pre-activation and the new cell state. -/
def hiddenOf (go cnew : EReal) : EReal := Ideal.logistic go * Ideal.tanh cnew

/-- The new cell states, as one array. -/
def cell (x h c wih whh : Mat) (b : Row) : Mat := fun i =>
  cellOf (gate x h wih whh b (i 0) (col0 (i 1))) (gate x h wih whh b (i 0) (col1 (i 1)))
    (gate x h wih whh b (i 0) (col2 (i 1))) (c i)

/-- The new hidden states, as one array. -/
def hidden (x h c wih whh : Mat) (b : Row) : Mat := fun i =>
  hiddenOf (gate x h wih whh b (i 0) (col3 (i 1))) (cell x h c wih whh b i)

end Cert.LstmSpec

end
-- ==== Proof.Block.lean ====
/-
  What one grid point of the kernel leaves in its two output blocks, index by index.

  At a point the body holds a `[512, 2048]` block of `x` and of `h`, a `[512, 256]` block of the previous cell
  state, a `[4, 256, 2048]` block of each stacked weight array (one `[256, 2048]` slab per gate) and a `[4, 256]`
  block of the stacked bias. For each gate `g` it transposes slab `g` of both weight blocks, multiplies the two
  activation blocks by them into a zero accumulator, adds the two products and adds row `g` of the bias block
  broadcast down the rows. At the extended reals a product into a zero accumulator read at `(p, q)` is the plain sum
  over the 2048 contracted positions of row `p` of the activations against row `q` of the slab (the transpose only
  swaps the slab's coordinates back), so the pre-activation of gate `g` at `(p, q)` is `gateB` below. The three
  logistic functions, the two hyperbolic tangents, the cap `min (1 − f) i` and the products are then applied entry
  by entry, exactly as the specification's `cellOf` and `hiddenOf` spell them.

  The last two theorems say: if the block operands hold the entries of six whole arrays at batch row `r` and at the four
  stacked columns of hidden unit `j`, then what the point leaves at `(p, q)` is the specification's `cell` / `hidden`
  of those arrays at `(r, j)`.
-/
import proofs.«159191_j78159814853182_1_alg».proof.Proof.Gen.KernelIdeal.Frame
import proofs.«159191_j78159814853182_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.LstmBlock

open Idealize.ShloMosaic Idealize.ShloMosaic.ValueIdx Cert.KernelIdeal Cert.KernelIdeal.Gen Cert.LstmSpec

/-- The product's left operand is read at the output's row -/
theorem lhs_0 (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
/-- and at the contracted position; -/
theorem lhs_1 (i : S512x256.Idx) (q : dot_S512x2048_S2048x256_S512x256_1_0_0_1_n_n.contr.Idx) :
    (dot_S512x2048_S2048x256_S512x256_1_0_0_1_n_n.lhsIdx i q 1).val = (q ⟨0, by decide⟩).val :=
  dot_S512x2048_S2048x256_S512x256_1_0_0_1_n_n.lhsIdx_val_of_single rfl i q
/-- its right operand at the contracted position -/
theorem rhs_0 (i : S512x256.Idx) (q : dot_S512x2048_S2048x256_S512x256_1_0_0_1_n_n.contr.Idx) :
    (dot_S512x2048_S2048x256_S512x256_1_0_0_1_n_n.rhsIdx i q 0).val = (q ⟨0, by decide⟩).val :=
  dot_S512x2048_S2048x256_S512x256_1_0_0_1_n_n.rhsIdx_val_of_single rfl i q
/-- and at the output's column. -/
theorem rhs_1 (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- A block product: rows of `A` against the rows of the weight slab `W` (the slab is transposed before the
    product, so the contraction runs along the slab's last axis). -/
theorem mm_apply (A : FVec Ideal S512x2048 .bf16) (W : Vec Ideal S1x256x2048 .bf16) (p : Fin 512) (q : Fin 256) :
    matmul (F := Ideal) (φ₁ := .bf16) (φ₂ := .bf16) dot_S512x2048_S2048x256_S512x256_1_0_0_1_n_n none A
        (transpose S2048x256 [1, 0] (shapeCast S256x2048 W shapeCasts_S1x256x2048_S256x2048 : FVec Ideal S256x2048 .bf16) transposes_S256x2048_p1_0_S2048x256)
        (constant S512x256 .f32 0x00000000#32) (ix2 p q)
      = ∑ k : Fin 2048, A (ix2 p k) * W (ix3 (0 : Fin 1) q k) := by
  simp only [matmul]
  rw [Ideal.matmul_constant_zero_apply, ← Equiv.sum_comp (ValueIdx.contrEquiv1 dot_S512x2048_S2048x256_S512x256_1_0_0_1_n_n 2048 rfl rfl).symm]
  refine Finset.sum_congr rfl fun k _ => ?_
  have hk := ValueIdx.contrEquiv1_symm_val dot_S512x2048_S2048x256_S512x256_1_0_0_1_n_n 2048 rfl rfl k
  have el : dot_S512x2048_S2048x256_S512x256_1_0_0_1_n_n.lhsIdx (ix2 p q) ((ValueIdx.contrEquiv1 dot_S512x2048_S2048x256_S512x256_1_0_0_1_n_n 2048 rfl rfl).symm k) = ix2 p k := funext fun a => Fin.ext (by
    match a with
    | ⟨0, _⟩ => exact lhs_0 _ _
    | ⟨1, _⟩ => exact (lhs_1 _ _).trans hk)
  have er : dot_S512x2048_S2048x256_S512x256_1_0_0_1_n_n.rhsIdx (ix2 p q) ((ValueIdx.contrEquiv1 dot_S512x2048_S2048x256_S512x256_1_0_0_1_n_n 2048 rfl rfl).symm k) = ix2 k q := funext fun a => Fin.ext (by
    match a with
    | ⟨0, _⟩ => exact (rhs_0 _ _).trans hk
    | ⟨1, _⟩ => exact rhs_1 _ _)
  rw [el, er, transpose_ix2_apply, shapeCast_1ab_ab_apply]

/-- The bias row, squeezed, unsqueezed and broadcast down the block's rows. -/
theorem bias_apply (B : Vec Ideal S1x256 .f32) (p : Fin 512) (q : Fin 256) :
    broadcastTo S512x256 (shapeCast S1x256 (shapeCast S256 B shapeCasts_S1x256_S256) shapeCasts_S256_S1x256) broadcasts_S1x256_S512x256 (ix2 p q)
      = B (ix2 (0 : Fin 1) q) := by
  rw [broadcastTo_1b_ab_apply, shapeCast_a_1a_apply, shapeCast_1a_a_apply]

/-- The hidden state from the output gate ALREADY passed through the logistic function. -/
def hiddenOf' (so cnew : EReal) : EReal := so * Ideal.tanh cnew

/-- One gate's pre-activation inside a block, from the block's operands: row `p` of the two activations against row
    `q` of the two weight slabs, plus the bias at `q`. -/
def gateB (X H : FVec Ideal S512x2048 .bf16) (Wi Wh : FVec Ideal S1x256x2048 .bf16) (B : FVec Ideal S1x256 .f32)
    (p : Fin 512) (q : Fin 256) : EReal :=
  (∑ k : Fin 2048, X (ix2 p k) * Wi (ix3 (0 : Fin 1) q k)) + (∑ k : Fin 2048, H (ix2 p k) * Wh (ix3 (0 : Fin 1) q k))
    + B (ix2 (0 : Fin 1) q)

/-- Gate 0's pre-activation (the first computed value): both products and the bias. -/
theorem pay4_apply (v0 v2 : Vec Ideal S512x2048 .bf16) (v5 v7 : Vec Ideal S1x256x2048 .bf16) (v14 : Vec Ideal S1x256 .f32)
    (p : Fin 512) (q : Fin 256) :
    k0_pay4 v0 v2 v5 v7 v14 (ix2 p q) = gateB v0 v2 v5 v7 v14 p q := by
  unfold k0_pay4 k0_pay2 k0_pay3
  simp only [addf_apply, shapeCast_self]
  rw [mm_apply, mm_apply, bias_apply]; rfl

/-- Gate 1's two products, before its bias is added. -/
theorem pay5_apply (v0 v2 : Vec Ideal S512x2048 .bf16) (v19 v21 : Vec Ideal S1x256x2048 .bf16) (p : Fin 512) (q : Fin 256) :
    k0_pay5 v0 v2 v19 v21 (ix2 p q)
      = (∑ k : Fin 2048, v0 (ix2 p k) * v19 (ix3 (0 : Fin 1) q k)) + (∑ k : Fin 2048, v2 (ix2 p k) * v21 (ix3 (0 : Fin 1) q k)) := by
  unfold k0_pay5 k0_pay2 k0_pay3
  simp only [addf_apply, shapeCast_self]
  rw [mm_apply, mm_apply]

/-- Gate 1's bias row broadcast down the block. -/
theorem pay6_apply (v28 : Vec Ideal S1x256 .f32) (p : Fin 512) (q : Fin 256) :
    k0_pay6 v28 (ix2 p q) = v28 (ix2 (0 : Fin 1) q) := by
  unfold k0_pay6
  exact bias_apply v28 p q

/-- The output gate: gate 3's pre-activation through the logistic function. -/
theorem pay7_apply (v1 v3 : FVec Ideal S512x2048 .bf16) (v47 v49 : Vec Ideal S1x256x2048 .bf16) (v56 : Vec Ideal S1x256 .f32)
    (p : Fin 512) (q : Fin 256) :
    k0_pay7 v1 v3 v47 v49 v56 (ix2 p q) = Ideal.logistic (gateB v1 v3 v47 v49 v56 p q) := by
  unfold k0_pay7
  show Ideal.logistic (_ + _ + _) = _
  rw [mm_apply, mm_apply, bias_apply]; rfl

/-- The new cell state from gate 0's and gate 1's pre-activations (computed earlier), gate 2's (computed here) and the previous cell state; the pattern of `1.0` is `1`. -/
theorem pay8_apply (v1 v3 : FVec Ideal S512x2048 .bf16) (v4 : Vec Ideal S512x256 .f32) (v18 v27 v31 : FVec Ideal S512x256 .f32)
    (v33 v35 : Vec Ideal S1x256x2048 .bf16) (v42 : Vec Ideal S1x256 .f32) (p : Fin 512) (q : Fin 256) :
    k0_pay8 v1 v3 v4 v18 v27 v31 v33 v35 v42 (ix2 p q)
      = cellOf (v18 (ix2 p q)) (v27 (ix2 p q) + v31 (ix2 p q)) (gateB v1 v3 v33 v35 v42 p q) (v4 (ix2 p q)) := by
  unfold k0_pay8
  show Ideal.logistic (v27 (ix2 p q) + v31 (ix2 p q)) * v4 (ix2 p q)
      + min (Ideal.ofBits .f32 0x3F800000#32 - Ideal.logistic (v27 (ix2 p q) + v31 (ix2 p q))) (Ideal.logistic (v18 (ix2 p q)))
        * Ideal.tanh (_ + _ + _) = _
  rw [mm_apply, mm_apply, bias_apply, ofBits_one]; rfl

/-- The new hidden state from the output gate's value and the new cell state. -/
theorem pay1_apply (v64 v70 : FVec Ideal S512x256 .f32) (i : S512x256.Idx) :
    k0_pay1 v64 v70 i = hiddenOf' (v64 i) (v70 i) := rfl

/-- A shape cast to the same shape changes nothing (the block of `x`). -/
theorem pay2_eq (v0 : Vec Ideal S512x2048 .bf16) : k0_pay2 v0 = v0 := by
  unfold k0_pay2; exact shapeCast_self _ _
/-- The same for the block of `h`. -/
theorem pay3_eq (v2 : Vec Ideal S512x2048 .bf16) : k0_pay3 v2 = v2 := by
  unfold k0_pay3; exact shapeCast_self _ _

/-! ## The slabs of the stacked weight and bias blocks -/

/-- Slab 0 of a stacked weight block, read at `(0, q, k)`, is the block at `(0, q, k)`; -/
theorem ldW_0 (X : Vec Ideal S4x256x2048 .bf16) (q : Fin 256) (k : Fin 2048) :
    View.ld X r0_2 (ix3 (0 : Fin 1) q k) = X (ix3 (0 : Fin 4) q k) := by
  show X (r0_2.idx (ix3 (0 : Fin 1) q k)) = _
  congr 1; funext a; apply Fin.ext
  match a with
  | ⟨0, _⟩ => rfl
  | ⟨1, _⟩ => show 0 + 1 * q.val = q.val; omega
  | ⟨2, _⟩ => show 0 + 1 * k.val = k.val; omega
/-- slab 1 is the block at `(1, q, k)`; -/
theorem ldW_1 (X : Vec Ideal S4x256x2048 .bf16) (q : Fin 256) (k : Fin 2048) :
    View.ld X r0_4 (ix3 (0 : Fin 1) q k) = X (ix3 (1 : Fin 4) q k) := by
  show X (r0_4.idx (ix3 (0 : Fin 1) q k)) = _
  congr 1; funext a; apply Fin.ext
  match a with
  | ⟨0, _⟩ => rfl
  | ⟨1, _⟩ => show 0 + 1 * q.val = q.val; omega
  | ⟨2, _⟩ => show 0 + 1 * k.val = k.val; omega
/-- slab 2 at `(2, q, k)`; -/
theorem ldW_2 (X : Vec Ideal S4x256x2048 .bf16) (q : Fin 256) (k : Fin 2048) :
    View.ld X r0_6 (ix3 (0 : Fin 1) q k) = X (ix3 (2 : Fin 4) q k) := by
  show X (r0_6.idx (ix3 (0 : Fin 1) q k)) = _
  congr 1; funext a; apply Fin.ext
  match a with
  | ⟨0, _⟩ => rfl
  | ⟨1, _⟩ => show 0 + 1 * q.val = q.val; omega
  | ⟨2, _⟩ => show 0 + 1 * k.val = k.val; omega
/-- slab 3 at `(3, q, k)`. -/
theorem ldW_3 (X : Vec Ideal S4x256x2048 .bf16) (q : Fin 256) (k : Fin 2048) :
    View.ld X r0_8 (ix3 (0 : Fin 1) q k) = X (ix3 (3 : Fin 4) q k) := by
  show X (r0_8.idx (ix3 (0 : Fin 1) q k)) = _
  congr 1; funext a; apply Fin.ext
  match a with
  | ⟨0, _⟩ => rfl
  | ⟨1, _⟩ => show 0 + 1 * q.val = q.val; omega
  | ⟨2, _⟩ => show 0 + 1 * k.val = k.val; omega

/-- Row 0 of the stacked bias block; -/
theorem ldB_0 (B : Vec Ideal S4x256 .f32) (q : Fin 256) :
    View.ld B r0_3 (ix2 (0 : Fin 1) q) = B (ix2 (0 : Fin 4) q) := by
  show B (r0_3.idx (ix2 (0 : Fin 1) q)) = _
  congr 1; funext a; apply Fin.ext
  match a with
  | ⟨0, _⟩ => rfl
  | ⟨1, _⟩ => show 0 + 1 * q.val = q.val; omega
/-- row 1; -/
theorem ldB_1 (B : Vec Ideal S4x256 .f32) (q : Fin 256) :
    View.ld B r0_5 (ix2 (0 : Fin 1) q) = B (ix2 (1 : Fin 4) q) := by
  show B (r0_5.idx (ix2 (0 : Fin 1) q)) = _
  congr 1; funext a; apply Fin.ext
  match a with
  | ⟨0, _⟩ => rfl
  | ⟨1, _⟩ => show 0 + 1 * q.val = q.val; omega
/-- row 2; -/
theorem ldB_2 (B : Vec Ideal S4x256 .f32) (q : Fin 256) :
    View.ld B r0_7 (ix2 (0 : Fin 1) q) = B (ix2 (2 : Fin 4) q) := by
  show B (r0_7.idx (ix2 (0 : Fin 1) q)) = _
  congr 1; funext a; apply Fin.ext
  match a with
  | ⟨0, _⟩ => rfl
  | ⟨1, _⟩ => show 0 + 1 * q.val = q.val; omega
/-- row 3. -/
theorem ldB_3 (B : Vec Ideal S4x256 .f32) (q : Fin 256) :
    View.ld B r0_9 (ix2 (0 : Fin 1) q) = B (ix2 (3 : Fin 4) q) := by
  show B (r0_9.idx (ix2 (0 : Fin 1) q)) = _
  congr 1; funext a; apply Fin.ext
  match a with
  | ⟨0, _⟩ => rfl
  | ⟨1, _⟩ => show 0 + 1 * q.val = q.val; omega

/-- A block's gate is the arrays' gate when the block operands are the arrays' entries at row `r` and stacked column `n`. -/
theorem gateB_restrict (X0 X1 : FVec Ideal S512x2048 .bf16) (W3 W4 : FVec Ideal S1x256x2048 .bf16) (B : FVec Ideal S1x256 .f32)
    (A0 A1 A3 A4 : Mat) (A5 : Row) (r n : Fin 8192) (p : Fin 512) (q : Fin 256)
    (h0 : ∀ k, X0 (ix2 p k) = A0 (ix2 r k)) (h1 : ∀ k, X1 (ix2 p k) = A1 (ix2 r k))
    (h3 : ∀ k, W3 (ix3 (0 : Fin 1) q k) = A3 (ix2 n k)) (h4 : ∀ k, W4 (ix3 (0 : Fin 1) q k) = A4 (ix2 n k))
    (h5 : B (ix2 (0 : Fin 1) q) = A5 (ix1 n)) :
    gateB X0 X1 W3 W4 B p q = gate A0 A1 A3 A4 A5 r n := by
  simp only [gateB, gate, h0, h1, h3, h4, h5]

/-- The zero offsets of a whole rank-2 block, however spelt. -/
theorem hz2 : (![0, 0] : Fin 2 → Nat) = fun _ => 0 := funext fun a => by fin_cases a <;> rfl

/-- WHAT A POINT LEAVES IN THE CELL-STATE BLOCK, at block index `(p, q)`, is the specification's new cell state at the
    array index `(r, j)` whose entries the block operands hold at `(p, ·)`, `(·, q, ·)`, `(·, q)` and `(p, q)`. -/
theorem out7_apply (x0 x1 : Vec Ideal S512x2048 .bf16) (x2 : Vec Ideal S512x256 .f32) (x3 x4 : Vec Ideal S4x256x2048 .bf16)
    (x5 : Vec Ideal S4x256 .f32) (A0 A1 A2 A3 A4 : Mat) (A5 : Row) (r : Fin 8192) (j : Fin 2048) (p : Fin 512) (q : Fin 256)
    (h0 : ∀ k, x0 (ix2 p k) = A0 (ix2 r k)) (h1 : ∀ k, x1 (ix2 p k) = A1 (ix2 r k))
    (h2 : x2 (ix2 p q) = A2 (ix2 r j))
    (h30 : ∀ k, x3 (ix3 (0 : Fin 4) q k) = A3 (ix2 (col0 j) k)) (h31 : ∀ k, x3 (ix3 (1 : Fin 4) q k) = A3 (ix2 (col1 j) k))
    (h32 : ∀ k, x3 (ix3 (2 : Fin 4) q k) = A3 (ix2 (col2 j) k))
    (h40 : ∀ k, x4 (ix3 (0 : Fin 4) q k) = A4 (ix2 (col0 j) k)) (h41 : ∀ k, x4 (ix3 (1 : Fin 4) q k) = A4 (ix2 (col1 j) k))
    (h42 : ∀ k, x4 (ix3 (2 : Fin 4) q k) = A4 (ix2 (col2 j) k))
    (h50 : x5 (ix2 (0 : Fin 4) q) = A5 (ix1 (col0 j))) (h51 : x5 (ix2 (1 : Fin 4) q) = A5 (ix1 (col1 j)))
    (h52 : x5 (ix2 (2 : Fin 4) q) = A5 (ix1 (col2 j))) :
    out0_7 x0 x1 x2 x3 x4 x5 (ix2 p q) = cell A0 A1 A2 A3 A4 A5 (ix2 r j) := by
  unfold out0_7
  rw [View.canon_unit_zero hz2]
  simp only [View.ld_unit_zero (S := S512x2048) hz2, View.ld_unit_zero (S := S512x256) hz2]
  rw [pay8_apply, pay4_apply, pay5_apply, pay6_apply, pay2_eq, pay3_eq]
  rw [gateB_restrict x0 x1 (View.ld x3 r0_2) (View.ld x4 r0_2) (View.ld x5 r0_3) A0 A1 A3 A4 A5 r (col0 j) p q h0 h1
      (fun k => (ldW_0 x3 q k).trans (h30 k)) (fun k => (ldW_0 x4 q k).trans (h40 k)) ((ldB_0 x5 q).trans h50),
    gateB_restrict x0 x1 (View.ld x3 r0_6) (View.ld x4 r0_6) (View.ld x5 r0_7) A0 A1 A3 A4 A5 r (col2 j) p q h0 h1
      (fun k => (ldW_2 x3 q k).trans (h32 k)) (fun k => (ldW_2 x4 q k).trans (h42 k)) ((ldB_2 x5 q).trans h52),
    show (∑ k, x0 (ix2 p k) * View.ld x3 r0_4 (ix3 (0 : Fin 1) q k) + ∑ k, x1 (ix2 p k) * View.ld x4 r0_4 (ix3 (0 : Fin 1) q k) +
        View.ld x5 r0_5 (ix2 (0 : Fin 1) q)) = gateB x0 x1 (View.ld x3 r0_4) (View.ld x4 r0_4) (View.ld x5 r0_5) p q from rfl,
    gateB_restrict x0 x1 (View.ld x3 r0_4) (View.ld x4 r0_4) (View.ld x5 r0_5) A0 A1 A3 A4 A5 r (col1 j) p q h0 h1
      (fun k => (ldW_1 x3 q k).trans (h31 k)) (fun k => (ldW_1 x4 q k).trans (h41 k)) ((ldB_1 x5 q).trans h51),
    h2]
  rfl

/-- WHAT A POINT LEAVES IN THE HIDDEN-STATE BLOCK, likewise, is the specification's new hidden state. -/
theorem out6_apply (x0 x1 : Vec Ideal S512x2048 .bf16) (x2 : Vec Ideal S512x256 .f32) (x3 x4 : Vec Ideal S4x256x2048 .bf16)
    (x5 : Vec Ideal S4x256 .f32) (A0 A1 A2 A3 A4 : Mat) (A5 : Row) (r : Fin 8192) (j : Fin 2048) (p : Fin 512) (q : Fin 256)
    (h0 : ∀ k, x0 (ix2 p k) = A0 (ix2 r k)) (h1 : ∀ k, x1 (ix2 p k) = A1 (ix2 r k))
    (h2 : x2 (ix2 p q) = A2 (ix2 r j))
    (h30 : ∀ k, x3 (ix3 (0 : Fin 4) q k) = A3 (ix2 (col0 j) k)) (h31 : ∀ k, x3 (ix3 (1 : Fin 4) q k) = A3 (ix2 (col1 j) k))
    (h32 : ∀ k, x3 (ix3 (2 : Fin 4) q k) = A3 (ix2 (col2 j) k)) (h33 : ∀ k, x3 (ix3 (3 : Fin 4) q k) = A3 (ix2 (col3 j) k))
    (h40 : ∀ k, x4 (ix3 (0 : Fin 4) q k) = A4 (ix2 (col0 j) k)) (h41 : ∀ k, x4 (ix3 (1 : Fin 4) q k) = A4 (ix2 (col1 j) k))
    (h42 : ∀ k, x4 (ix3 (2 : Fin 4) q k) = A4 (ix2 (col2 j) k)) (h43 : ∀ k, x4 (ix3 (3 : Fin 4) q k) = A4 (ix2 (col3 j) k))
    (h50 : x5 (ix2 (0 : Fin 4) q) = A5 (ix1 (col0 j))) (h51 : x5 (ix2 (1 : Fin 4) q) = A5 (ix1 (col1 j)))
    (h52 : x5 (ix2 (2 : Fin 4) q) = A5 (ix1 (col2 j))) (h53 : x5 (ix2 (3 : Fin 4) q) = A5 (ix1 (col3 j))) :
    out0_6 x0 x1 x2 x3 x4 x5 (ix2 p q) = hidden A0 A1 A2 A3 A4 A5 (ix2 r j) := by
  have hc := out7_apply x0 x1 x2 x3 x4 x5 A0 A1 A2 A3 A4 A5 r j p q h0 h1 h2 h30 h31 h32 h40 h41 h42 h50 h51 h52
  unfold out0_7 at hc
  rw [View.canon_unit_zero hz2] at hc
  unfold out0_6
  rw [View.canon_unit_zero hz2, pay1_apply, hc]
  simp only [View.ld_unit_zero (S := S512x2048) hz2]
  rw [pay7_apply, pay2_eq, pay3_eq,
    gateB_restrict x0 x1 (View.ld x3 r0_8) (View.ld x4 r0_8) (View.ld x5 r0_9) A0 A1 A3 A4 A5 r (col3 j) p q h0 h1
      (fun k => (ldW_3 x3 q k).trans (h33 k)) (fun k => (ldW_3 x4 q k).trans (h43 k)) ((ldB_3 x5 q).trans h53)]
  rfl

end Cert.LstmBlock

end
-- ==== Proof.Inputs.lean ====
/-
  The arrays the kernel's one region finds, and each input window's block at a grid point read at an index.

  Before the region the program only changes float formats (the identity on the extended reals) and re-lays the
  stacked weights `[4·2048, 2048]` as `[4, 2048, 2048]` and the stacked bias `[4·2048]` as `[4, 2048]`: entry
  `(g, n, k)` of the re-laid weights is entry `(g·2048 + n, k)` of the argument (same row-major position), and entry
  `(g, n)` of the re-laid bias is entry `g·2048 + n`.

  The grid is `16 × 8`: point `(I, J)` sees rows `I·512 …` of `x`, `h` and the previous cell state, and hidden units
  `J·256 …` of all four gates. The printed index maps are decided once over the 128 points (`idx_facts`); a block's
  entry then sits at block index × block size + the coordinate inside the block, on every axis.
-/
import proofs.«159191_j78159814853182_1_alg».proof.Proof.Gen.KernelIdeal.Value
import proofs.«159191_j78159814853182_1_alg».proof.Proof.Block
import Idealize.ShloMosaic.Lib.StableHlo.Run

set_option maxRecDepth 16384

noncomputable section

namespace Cert.LstmRun

open Cert.KernelIdeal Cert.KernelIdeal.Gen Idealize.ShloMosaic Idealize.ShloMosaic.TcCoe Idealize.SL.Sem
open Idealize.ShloMosaic.ValueIdx Cert.LstmSpec Cert.LstmBlock
open Idealize.ShloMosaic.Pipeline (Dat)

variable (m : (ℓ : Loc nD τ sig) → Buf (Elt Ideal) ℓ) (ρ : Dev nD → PrngReg)

/-! ## The arrays the region finds -/

/-- The six argument arrays on device `c`, as launched. -/
abbrev a0 (c : Dev nD) : Mat := m ((c : Thread nD τ).loc main_arg0)
abbrev a1 (c : Dev nD) : Mat := m ((c : Thread nD τ).loc main_arg1)
abbrev a2 (c : Dev nD) : Mat := m ((c : Thread nD τ).loc main_arg2)
abbrev a3 (c : Dev nD) : Mat := m ((c : Thread nD τ).loc main_arg3)
abbrev a4 (c : Dev nD) : Mat := m ((c : Thread nD τ).loc main_arg4)
abbrev a5 (c : Dev nD) : Row := m ((c : Thread nD τ).loc main_arg5)

/-- The region finds `x` converted to the narrower format: the same extended reals. -/
theorem V_v0 (c : Dev nD) : (V m c main_v0 : S8192x2048.Idx → EReal) = a0 m c := by
  dsimp only [V, hostOps0]; after_results; rfl
/-- The same for `h`. -/
theorem V_v1 (c : Dev nD) : (V m c main_v1 : S8192x2048.Idx → EReal) = a1 m c := by
  dsimp only [V, hostOps0]; after_results; rfl
/-- The input weights, converted and re-laid as four `[2048, 2048]` slabs. -/
theorem V_v3 (c : Dev nD) : (V m c main_v3 : S4x2048x2048.Idx → EReal) = shapeCast S4x2048x2048 (a3 m c) shapeCasts_S8192x2048_S4x2048x2048 := by
  dsimp only [V, hostOps0]; after_results; rfl
/-- The recurrent weights, likewise. -/
theorem V_v5 (c : Dev nD) : (V m c main_v5 : S4x2048x2048.Idx → EReal) = shapeCast S4x2048x2048 (a4 m c) shapeCasts_S8192x2048_S4x2048x2048 := by
  dsimp only [V, hostOps0]; after_results; rfl
/-- The bias re-laid as four rows of 2048. -/
theorem V_v6 (c : Dev nD) : (V m c main_v6 : S4x2048.Idx → EReal) = shapeCast S4x2048 (a5 m c) shapeCasts_S8192_S4x2048 := by
  dsimp only [V, hostOps0]; after_results; rfl

/-! ## The printed index maps, decided over the 128 grid points -/

/-- Every input window moves with the output blocks: rows with the output's row block, hidden units with its column block, and the contracted axis and the gate axis are never split. The output's block indices stay below 16 and 8. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = win0_7.index t (1 : Fin 2)
    ∧ win0_3.index t (0 : Fin 3) = 0 ∧ win0_3.index t (1 : Fin 3) = win0_7.index t (1 : Fin 2) ∧ win0_3.index t (2 : Fin 3) = 0
    ∧ win0_4.index t (0 : Fin 3) = 0 ∧ win0_4.index t (1 : Fin 3) = win0_7.index t (1 : Fin 2) ∧ win0_4.index t (2 : Fin 3) = 0
    ∧ win0_5.index t (0 : Fin 2) = 0 ∧ win0_5.index t (1 : Fin 2) = win0_7.index t (1 : Fin 2)
    ∧ win0_6.index t (0 : Fin 2) = win0_7.index t (0 : Fin 2) ∧ win0_6.index t (1 : Fin 2) = win0_7.index t (1 : Fin 2)
    ∧ win0_7.index t (0 : Fin 2) ≤ 15 ∧ win0_7.index t (1 : Fin 2) ≤ 7 :=
  (by decide +kernel : ∀ t : Fin grid0.N, _)

/-- Every block of the output arrays is some grid point's. -/
theorem idx_onto : ∀ (q0 : Fin 16) (q1 : Fin 8), ∃ t : Fin cfg0.N, win0_7.index t = ![q0.val, q1.val] :=
  (by decide +kernel : ∀ (q0 : Fin 16) (q1 : Fin 8), ∃ t : Fin grid0.N, win0_7.index t = ![q0.val, q1.val])

/-! ## Each input window's block at a point, read at an index

The block indices enter as plain naturals `I` (rows) and `J` (columns), with the window's printed index map equated to them:
the arithmetic is then about `I`, `J` and the coordinates only. -/

/-- Row `p` of the block of `x` at a point with row block `I` is row `I·512 + p` of `x`. -/
theorem blk0_apply (c : Dev nD) (t : Fin cfg0.N) (p : Fin 512) (k : Fin 2048) (r : Fin 8192) (I : Nat)
    (h0 : win0_0.index t (0 : Fin 2) = I) (h1 : win0_0.index t (1 : Fin 2) = 0) (hr : r.val = I * 512 + p.val) :
    iblk m c 0 t (ix2 p k) = a0 m c (ix2 r k) := by
  show V m c main_v0 (((cfg0.win 0).blk t).view.emb (ix2 p k)) = _
  refine (congrFun (V_v0 m c) _).trans ?_
  congr 1; funext a; apply Fin.ext
  match a with
  | ⟨0, _⟩ => show win0_0.index t (0 : Fin 2) * 512 + 1 * p.val = r.val; rw [h0]; omega
  | ⟨1, _⟩ => show win0_0.index t (1 : Fin 2) * 2048 + 1 * k.val = k.val; rw [h1]; omega

/-- The same for `h`. -/
theorem blk1_apply (c : Dev nD) (t : Fin cfg0.N) (p : Fin 512) (k : Fin 2048) (r : Fin 8192) (I : Nat)
    (h0 : win0_1.index t (0 : Fin 2) = I) (h1 : win0_1.index t (1 : Fin 2) = 0) (hr : r.val = I * 512 + p.val) :
    iblk m c 1 t (ix2 p k) = a1 m c (ix2 r k) := by
  show V m c main_v1 (((cfg0.win 1).blk t).view.emb (ix2 p k)) = _
  refine (congrFun (V_v1 m c) _).trans ?_
  congr 1; funext a; apply Fin.ext
  match a with
  | ⟨0, _⟩ => show win0_1.index t (0 : Fin 2) * 512 + 1 * p.val = r.val; rw [h0]; omega
  | ⟨1, _⟩ => show win0_1.index t (1 : Fin 2) * 2048 + 1 * k.val = k.val; rw [h1]; omega

/-- Entry `(p, q)` of the block of previous cell states is entry `(I·512 + p, J·256 + q)`. -/
theorem blk2_apply (c : Dev nD) (t : Fin cfg0.N) (p : Fin 512) (q : Fin 256) (r : Fin 8192) (j : Fin 2048) (I J : Nat)
    (h0 : win0_2.index t (0 : Fin 2) = I) (h1 : win0_2.index t (1 : Fin 2) = J)
    (hr : r.val = I * 512 + p.val) (hj : j.val = J * 256 + q.val) :
    iblk m c 2 t (ix2 p q) = a2 m c (ix2 r j) := by
  show V m c main_arg2 (((cfg0.win 2).blk t).view.emb (ix2 p q)) = _
  refine (congrFun (V_main_arg2 m c) _).trans ?_
  congr 1; funext a; apply Fin.ext
  match a with
  | ⟨0, _⟩ => show win0_2.index t (0 : Fin 2) * 512 + 1 * p.val = r.val; rw [h0]; omega
  | ⟨1, _⟩ => show win0_2.index t (1 : Fin 2) * 256 + 1 * q.val = j.val; rw [h1]; omega

/-- Entry `(g, q, k)` of the block of input weights is row `g·2048 + J·256 + q`, column `k` of the stacked array. -/
theorem blk3_apply (c : Dev nD) (t : Fin cfg0.N) (g : Fin 4) (q : Fin 256) (k : Fin 2048) (n : Fin 8192) (J : Nat)
    (h0 : win0_3.index t (0 : Fin 3) = 0) (h1 : win0_3.index t (1 : Fin 3) = J) (h2 : win0_3.index t (2 : Fin 3) = 0)
    (hn : n.val = g.val * 2048 + (J * 256 + q.val)) :
    iblk m c 3 t (ix3 g q k) = a3 m c (ix2 n k) := by
  show V m c main_v3 (((cfg0.win 3).blk t).view.emb (ix3 g q k)) = _
  refine (congrFun (V_v3 m c) _).trans ?_
  refine shapeCast_apply _ _ _ _ ?_
  rw [Shape.rowMajor_val_two, Shape.rowMajor_val_three]
  show n.val * 2048 + k.val = ((win0_3.index t (0 : Fin 3) * 4 + 1 * g.val) * 2048 + (win0_3.index t (1 : Fin 3) * 256 + 1 * q.val)) * 2048 + (win0_3.index t (2 : Fin 3) * 2048 + 1 * k.val)
  rw [h0, h1, h2]; omega

/-- The same for the recurrent weights. -/
theorem blk4_apply (c : Dev nD) (t : Fin cfg0.N) (g : Fin 4) (q : Fin 256) (k : Fin 2048) (n : Fin 8192) (J : Nat)
    (h0 : win0_4.index t (0 : Fin 3) = 0) (h1 : win0_4.index t (1 : Fin 3) = J) (h2 : win0_4.index t (2 : Fin 3) = 0)
    (hn : n.val = g.val * 2048 + (J * 256 + q.val)) :
    iblk m c 4 t (ix3 g q k) = a4 m c (ix2 n k) := by
  show V m c main_v5 (((cfg0.win 4).blk t).view.emb (ix3 g q k)) = _
  refine (congrFun (V_v5 m c) _).trans ?_
  refine shapeCast_apply _ _ _ _ ?_
  rw [Shape.rowMajor_val_two, Shape.rowMajor_val_three]
  show n.val * 2048 + k.val = ((win0_4.index t (0 : Fin 3) * 4 + 1 * g.val) * 2048 + (win0_4.index t (1 : Fin 3) * 256 + 1 * q.val)) * 2048 + (win0_4.index t (2 : Fin 3) * 2048 + 1 * k.val)
  rw [h0, h1, h2]; omega

/-- Entry `(g, q)` of the bias block is entry `g·2048 + J·256 + q` of the stacked bias. -/
theorem blk5_apply (c : Dev nD) (t : Fin cfg0.N) (g : Fin 4) (q : Fin 256) (n : Fin 8192) (J : Nat)
    (h0 : win0_5.index t (0 : Fin 2) = 0) (h1 : win0_5.index t (1 : Fin 2) = J)
    (hn : n.val = g.val * 2048 + (J * 256 + q.val)) :
    iblk m c 5 t (ix2 g q) = a5 m c (ix1 n) := by
  show V m c main_v6 (((cfg0.win 5).blk t).view.emb (ix2 g q)) = _
  refine (congrFun (V_v6 m c) _).trans ?_
  refine shapeCast_apply _ _ _ _ ?_
  rw [Shape.rowMajor_val_one, Shape.rowMajor_val_two]
  show n.val = (win0_5.index t (0 : Fin 2) * 4 + 1 * g.val) * 2048 + (win0_5.index t (1 : Fin 2) * 256 + 1 * q.val)
  rw [h0, h1]; omega

end Cert.LstmRun

end
-- ==== Proof.Run.lean ====
/-
  From blocks to arrays: each grid point writes back block `(I, J)` of the specification's `hidden` and `cell` of
  the six argument arrays, the 128 blocks tile both `[8192, 2048]` results, so after the run the two result arrays
  ARE `hidden` and `cell` of the arguments.

  For entry `(p, q)` of the block at point `(I, J)`, put `r = I·512 + p` and `j = J·256 + q`. The block operands
  hold row `r` of `x` and `h`, entry `(r, j)` of the previous cell state, and rows `g·2048 + j` of both weight arrays
  and entries `g·2048 + j` of the bias for the four gates `g`: exactly what the specification reads at `(r, j)`.
-/
import proofs.«159191_j78159814853182_1_alg».proof.Proof.Inputs

set_option maxRecDepth 16384

noncomputable section

namespace Cert.LstmRun

open Cert.KernelIdeal Cert.KernelIdeal.Gen Idealize.ShloMosaic Idealize.ShloMosaic.TcCoe Idealize.SL.Sem
open Idealize.ShloMosaic.ValueIdx Cert.LstmSpec Cert.LstmBlock
open Idealize.ShloMosaic.Pipeline (Dat)

variable (m : (ℓ : Loc nD τ sig) → Buf (Elt Ideal) ℓ) (ρ : Dev nD → PrngReg)

/-! ## What a point writes back, and the arrays after the run -/

/-- The new cell states and the new hidden states of the argument arrays on device `c`. -/
abbrev cellArr (c : Dev nD) : Mat := cell (a0 m c) (a1 m c) (a2 m c) (a3 m c) (a4 m c) (a5 m c)
abbrev hiddenArr (c : Dev nD) : Mat := hidden (a0 m c) (a1 m c) (a2 m c) (a3 m c) (a4 m c) (a5 m c)

/-- A row inside the array. -/
theorem row_lt (I p : Nat) (hI : I ≤ 15) (hp : p < 512) : I * 512 + p < 8192 := by omega
/-- A hidden unit inside the array. -/
theorem col_lt (J q : Nat) (hJ : J ≤ 7) (hq : q < 256) : J * 256 + q < 2048 := by omega

/-- The stacked columns of a hidden unit `j = J·256 + q`, gate by gate. -/
theorem col0_val (j : Fin 2048) (J q : Nat) (hj : j.val = J * 256 + q) : (col0 j).val = (0 : Fin 4).val * 2048 + (J * 256 + q) := by
  show j.val = 0 * 2048 + (J * 256 + q); rw [hj, Nat.zero_mul, Nat.zero_add]
/-- Gate 1. -/
theorem col1_val (j : Fin 2048) (J q : Nat) (hj : j.val = J * 256 + q) : (col1 j).val = (1 : Fin 4).val * 2048 + (J * 256 + q) := by
  show 2048 + j.val = 1 * 2048 + (J * 256 + q); rw [hj]
/-- Gate 2. -/
theorem col2_val (j : Fin 2048) (J q : Nat) (hj : j.val = J * 256 + q) : (col2 j).val = (2 : Fin 4).val * 2048 + (J * 256 + q) := by
  show 4096 + j.val = 2 * 2048 + (J * 256 + q); rw [hj]
/-- Gate 3. -/
theorem col3_val (j : Fin 2048) (J q : Nat) (hj : j.val = J * 256 + q) : (col3 j).val = (3 : Fin 4).val * 2048 + (J * 256 + q) := by
  show 6144 + j.val = 3 * 2048 + (J * 256 + q); rw [hj]

/-- WHAT POINT `t` WRITES BACK to the cell-state array is block `t` of `cell` of the arguments. -/
theorem flushed7_eq (c : Dev nD) (t : Fin cfg0.N) :
    (dats m 0 c).flushed 7 t = ((cfg0.win 7).blk t).view.read (Elt Ideal) (cellArr m c) := by
  rw [Cert.KernelIdeal.Value.flushed7]
  obtain ⟨e00, e01, e10, e11, e20, e21, e30, e31, e32, e40, e41, e42, e50, e51, e60, e61, b0, b1⟩ := idx_facts t
  funext y
  obtain ⟨p, q, rfl⟩ : ∃ (p : Fin 512) (q : Fin 256), y = ix2 p q := ⟨y 0, y 1, eq_ix2 y⟩
  obtain ⟨r, hr⟩ : ∃ r : Fin 8192, r.val = win0_7.index t (0 : Fin 2) * 512 + p.val := ⟨⟨_, row_lt _ _ b0 p.isLt⟩, rfl⟩
  obtain ⟨j, hj⟩ : ∃ j : Fin 2048, j.val = win0_7.index t (1 : Fin 2) * 256 + q.val := ⟨⟨_, col_lt _ _ b1 q.isLt⟩, rfl⟩
  show out0_7 (iblk m c 0 t) (iblk m c 1 t) (iblk m c 2 t) (iblk m c 3 t) (iblk m c 4 t) (iblk m c 5 t) (ix2 p q)
      = cellArr m c (((cfg0.win 7).blk t).view.emb (ix2 p q))
  have hidx : ((cfg0.win 7).blk t).view.emb (ix2 p q) = ix2 r j := by
    funext a; apply Fin.ext
    match a with
    | ⟨0, _⟩ => show win0_7.index t (0 : Fin 2) * 512 + 1 * p.val = r.val; rw [hr, Nat.one_mul]
    | ⟨1, _⟩ => show win0_7.index t (1 : Fin 2) * 256 + 1 * q.val = j.val; rw [hj, Nat.one_mul]
  rw [hidx]
  exact out7_apply (iblk m c 0 t) (iblk m c 1 t) (iblk m c 2 t) (iblk m c 3 t) (iblk m c 4 t) (iblk m c 5 t)
    (a0 m c) (a1 m c) (a2 m c) (a3 m c) (a4 m c) (a5 m c) r j p q
    (fun k => blk0_apply m c t p k r _ e00 e01 hr)
    (fun k => blk1_apply m c t p k r _ e10 e11 hr)
    (blk2_apply m c t p q r j _ _ e20 e21 hr hj)
    (fun k => blk3_apply m c t 0 q k (col0 j) _ e30 e31 e32 (col0_val j _ _ hj))
    (fun k => blk3_apply m c t 1 q k (col1 j) _ e30 e31 e32 (col1_val j _ _ hj))
    (fun k => blk3_apply m c t 2 q k (col2 j) _ e30 e31 e32 (col2_val j _ _ hj))
    (fun k => blk4_apply m c t 0 q k (col0 j) _ e40 e41 e42 (col0_val j _ _ hj))
    (fun k => blk4_apply m c t 1 q k (col1 j) _ e40 e41 e42 (col1_val j _ _ hj))
    (fun k => blk4_apply m c t 2 q k (col2 j) _ e40 e41 e42 (col2_val j _ _ hj))
    (blk5_apply m c t 0 q (col0 j) _ e50 e51 (col0_val j _ _ hj))
    (blk5_apply m c t 1 q (col1 j) _ e50 e51 (col1_val j _ _ hj))
    (blk5_apply m c t 2 q (col2 j) _ e50 e51 (col2_val j _ _ hj))

/-- WHAT POINT `t` WRITES BACK to the hidden-state array is block `t` of `hidden` of the arguments. -/
theorem flushed6_eq (c : Dev nD) (t : Fin cfg0.N) :
    (dats m 0 c).flushed 6 t = ((cfg0.win 6).blk t).view.read (Elt Ideal) (hiddenArr m c) := by
  rw [Cert.KernelIdeal.Value.flushed6]
  obtain ⟨e00, e01, e10, e11, e20, e21, e30, e31, e32, e40, e41, e42, e50, e51, e60, e61, b0, b1⟩ := idx_facts t
  funext y
  obtain ⟨p, q, rfl⟩ : ∃ (p : Fin 512) (q : Fin 256), y = ix2 p q := ⟨y 0, y 1, eq_ix2 y⟩
  obtain ⟨r, hr⟩ : ∃ r : Fin 8192, r.val = win0_7.index t (0 : Fin 2) * 512 + p.val := ⟨⟨_, row_lt _ _ b0 p.isLt⟩, rfl⟩
  obtain ⟨j, hj⟩ : ∃ j : Fin 2048, j.val = win0_7.index t (1 : Fin 2) * 256 + q.val := ⟨⟨_, col_lt _ _ b1 q.isLt⟩, rfl⟩
  show out0_6 (iblk m c 0 t) (iblk m c 1 t) (iblk m c 2 t) (iblk m c 3 t) (iblk m c 4 t) (iblk m c 5 t) (ix2 p q)
      = hiddenArr m c (((cfg0.win 6).blk t).view.emb (ix2 p q))
  have hidx : ((cfg0.win 6).blk t).view.emb (ix2 p q) = ix2 r j := by
    funext a; apply Fin.ext
    match a with
    | ⟨0, _⟩ => show win0_6.index t (0 : Fin 2) * 512 + 1 * p.val = r.val; rw [e60, hr, Nat.one_mul]
    | ⟨1, _⟩ => show win0_6.index t (1 : Fin 2) * 256 + 1 * q.val = j.val; rw [e61, hj, Nat.one_mul]
  rw [hidx]
  exact out6_apply (iblk m c 0 t) (iblk m c 1 t) (iblk m c 2 t) (iblk m c 3 t) (iblk m c 4 t) (iblk m c 5 t)
    (a0 m c) (a1 m c) (a2 m c) (a3 m c) (a4 m c) (a5 m c) r j p q
    (fun k => blk0_apply m c t p k r _ e00 e01 hr)
    (fun k => blk1_apply m c t p k r _ e10 e11 hr)
    (blk2_apply m c t p q r j _ _ e20 e21 hr hj)
    (fun k => blk3_apply m c t 0 q k (col0 j) _ e30 e31 e32 (col0_val j _ _ hj))
    (fun k => blk3_apply m c t 1 q k (col1 j) _ e30 e31 e32 (col1_val j _ _ hj))
    (fun k => blk3_apply m c t 2 q k (col2 j) _ e30 e31 e32 (col2_val j _ _ hj))
    (fun k => blk3_apply m c t 3 q k (col3 j) _ e30 e31 e32 (col3_val j _ _ hj))
    (fun k => blk4_apply m c t 0 q k (col0 j) _ e40 e41 e42 (col0_val j _ _ hj))
    (fun k => blk4_apply m c t 1 q k (col1 j) _ e40 e41 e42 (col1_val j _ _ hj))
    (fun k => blk4_apply m c t 2 q k (col2 j) _ e40 e41 e42 (col2_val j _ _ hj))
    (fun k => blk4_apply m c t 3 q k (col3 j) _ e40 e41 e42 (col3_val j _ _ hj))
    (blk5_apply m c t 0 q (col0 j) _ e50 e51 (col0_val j _ _ hj))
    (blk5_apply m c t 1 q (col1 j) _ e50 e51 (col1_val j _ _ hj))
    (blk5_apply m c t 2 q (col2 j) _ e50 e51 (col2_val j _ _ hj))
    (blk5_apply m c t 3 q (col3 j) _ e50 e51 (col3_val j _ _ hj))

/-! ## The blocks tile the result arrays -/

/-- An index is in point `t`'s block of the cell-state array iff each coordinate is in the block's range. -/
theorem mem_blk7 (t : Fin cfg0.N) (i : S8192x2048.Idx) :
    i ∈ ((cfg0.win 7).blk t).view.set ↔ ∀ a : Fin 2, win0_7.index t a * S512x256.size a ≤ (i a).val ∧ (i a).val < win0_7.index t a * S512x256.size a + S512x256.size a := by
  show i ∈ ((View.whole main_v7_1).slice (win0_7.rect t)).set ↔ _
  rw [View.set_slice_whole, Rect.mem_set_unit]
  exact Iff.rfl

/-- The same for the hidden-state array. -/
theorem mem_blk6 (t : Fin cfg0.N) (i : S8192x2048.Idx) :
    i ∈ ((cfg0.win 6).blk t).view.set ↔ ∀ a : Fin 2, win0_6.index t a * S512x256.size a ≤ (i a).val ∧ (i a).val < win0_6.index t a * S512x256.size a + S512x256.size a := by
  show i ∈ ((View.whole main_v7_0).slice (win0_6.rect t)).set ↔ _
  rw [View.set_slice_whole, Rect.mem_set_unit]
  exact Iff.rfl

/-- The block that holds row `a`, hidden unit `b`: row block `a / 512`, column block `b / 256`. -/
theorem in_block (a b I J : Nat) (hI : I = a / 512) (hJ : J = b / 256) :
    (I * 512 ≤ a ∧ a < I * 512 + 512) ∧ (J * 256 ≤ b ∧ b < J * 256 + 256) := by
  omega

/-- Every index of the cell-state array is in some point's block. -/
theorem cover7 (i : S8192x2048.Idx) : ∃ t : Fin cfg0.N, (cfg0.win 7).flush t = true ∧ i ∈ ((cfg0.win 7).blk t).view.set := by
  obtain ⟨t, ht⟩ := idx_onto ⟨(i 0).val / 512, Nat.div_lt_of_lt_mul (i 0).isLt⟩ ⟨(i 1).val / 256, Nat.div_lt_of_lt_mul (i 1).isLt⟩
  have q0 : win0_7.index t (0 : Fin 2) = (i 0).val / 512 := congrFun ht 0
  have q1 : win0_7.index t (1 : Fin 2) = (i 1).val / 256 := congrFun ht 1
  obtain ⟨k0, k1⟩ := in_block (i 0).val (i 1).val _ _ q0 q1
  refine ⟨t, flush0_7 t, ?_⟩
  rw [mem_blk7]
  intro a
  match a with
  | ⟨0, _⟩ => exact k0
  | ⟨1, _⟩ => exact k1

/-- Every index of the hidden-state array is in some point's block. -/
theorem cover6 (i : S8192x2048.Idx) : ∃ t : Fin cfg0.N, (cfg0.win 6).flush t = true ∧ i ∈ ((cfg0.win 6).blk t).view.set := by
  obtain ⟨t, ht⟩ := idx_onto ⟨(i 0).val / 512, Nat.div_lt_of_lt_mul (i 0).isLt⟩ ⟨(i 1).val / 256, Nat.div_lt_of_lt_mul (i 1).isLt⟩
  obtain ⟨e00, e01, e10, e11, e20, e21, e30, e31, e32, e40, e41, e42, e50, e51, e60, e61, b0, b1⟩ := idx_facts t
  have q0 : win0_6.index t (0 : Fin 2) = (i 0).val / 512 := e60.trans (congrFun ht 0)
  have q1 : win0_6.index t (1 : Fin 2) = (i 1).val / 256 := e61.trans (congrFun ht 1)
  obtain ⟨k0, k1⟩ := in_block (i 0).val (i 1).val _ _ q0 q1
  refine ⟨t, flush0_6 t, ?_⟩
  rw [mem_blk6]
  intro a
  match a with
  | ⟨0, _⟩ => exact k0
  | ⟨1, _⟩ => exact k1

/-- THE CELL-STATE ARRAY after the run. -/
theorem final7 (c : Dev nD) : (dats m 0 c).arrAt 7 cfg0.N = cellArr m c :=
  (dats m 0 c).arrAt_eq_of_cover 7 (cellArr m c) (fun t _ => flushed7_eq m c t) cover7

/-- THE HIDDEN-STATE ARRAY after the run. -/
theorem final6 (c : Dev nD) : (dats m 0 c).arrAt 6 cfg0.N = hiddenArr m c :=
  (dats m 0 c).arrAt_eq_of_cover 6 (hiddenArr m c) (fun t _ => flushed6_eq m c t) cover6

/-- The kernel program's run, read: every weakly fair execution ends with the two results at `hidden` and `cell` of the
    arguments, the arguments unchanged. -/
theorem run : θ_run defs (onTc (τ := τ) (main (F := Ideal))) ⟨m, fun _ => 0, ρ⟩ fun r => ∀ c : Dev nD,
      r.2.mem ((c : Thread nD τ).loc main_v7_0) = hiddenArr m c
      ∧ r.2.mem ((c : Thread nD τ).loc main_v7_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2⟩)
    (Cert.KernelIdeal.Value.run_blocks m ρ)

end Cert.LstmRun

end
-- ==== Proof.RefSpec.lean ====
/-
  The reference program's two results, read one operation at a time, are the specification's `hidden` and `cell`.

  The reference forms the whole `[8192, 8192]` array of pre-activations `x · wihᵀ + h · whhᵀ + b` (each product a
  sum over the 2048 contracted positions, the transposes read back at swapped coordinates, the bias broadcast along
  the rows), cuts it into four `[8192, 2048]` column bands at offsets 0, 2048, 4096, 6144, and applies the
  logistic function spelt as `1 / (1 + exp (−·))`, which is the logistic function of the extended reals by
  definition once the pattern of `1.0` is read as `1`.
-/
import proofs.«159191_j78159814853182_1_alg».proof.Proof.Gen.ReferenceIdeal.Read
import proofs.«159191_j78159814853182_1_alg».proof.Proof.Spec

noncomputable section

namespace Cert.LstmRef

open Idealize.ShloMosaic Idealize.ShloMosaic.ValueIdx Cert.ReferenceIdeal Cert.ReferenceIdeal.Read Cert.LstmSpec

variable (x0 x1 x2 x3 x4 : Mat) (x5 : Row)

/-- The array of pre-activations at row `r`, stacked column `n`, is the specification's `gate`. -/
theorem preact_apply (r n : Fin 8192) :
    val_main_v7 (F := Ideal) x0 x1 x3 x4 x5 (ix2 r n) = gate x0 x1 x3 x4 x5 r n := by
  have e1 : ∀ k : Fin 2048, lidx_main_v1 (ix2 r n) k = ix2 r k := fun k => funext fun a => by
    match a with | ⟨0, _⟩ => rfl | ⟨1, _⟩ => rfl
  have e2 : ∀ k : Fin 2048, idx_main_v0 (ridx_main_v1 (ix2 r n) k) = ix2 n k := fun k => funext fun a => by
    match a with | ⟨0, _⟩ => rfl | ⟨1, _⟩ => rfl
  have e3 : ∀ k : Fin 2048, lidx_main_v3 (ix2 r n) k = ix2 r k := fun k => funext fun a => by
    match a with | ⟨0, _⟩ => rfl | ⟨1, _⟩ => rfl
  have e4 : ∀ k : Fin 2048, idx_main_v2 (ridx_main_v3 (ix2 r n) k) = ix2 n k := fun k => funext fun a => by
    match a with | ⟨0, _⟩ => rfl | ⟨1, _⟩ => rfl
  have e5 : idx_main_v5 (idx_main_v6 (ix2 r n)) = ix1 n := funext fun a => by
    match a with | ⟨0, _⟩ => rfl
  rw [val_main_v7_apply, val_main_v4_apply, val_main_v1_apply, val_main_v3_apply, val_main_v6_apply, val_main_v5_apply]
  simp only [val_main_v0_apply, val_main_v2_apply, e1, e2, e3, e4, e5]
  rfl

/-- The four column bands of the pre-activations, at row `r` and hidden unit `j`: band 0 (input gate). -/
theorem band0_apply (r : Fin 8192) (j : Fin 2048) :
    val_main_v8 (F := Ideal) x0 x1 x3 x4 x5 (ix2 r j) = gate x0 x1 x3 x4 x5 r (col0 j) := by
  rw [val_main_v8_apply, show idx_main_v8 (ix2 r j) = ix2 r (col0 j) from funext fun a => by
    match a with | ⟨0, _⟩ => rfl | ⟨1, _⟩ => rfl]
  exact preact_apply x0 x1 x3 x4 x5 r (col0 j)
/-- Band 1 (forget gate). -/
theorem band1_apply (r : Fin 8192) (j : Fin 2048) :
    val_main_v9 (F := Ideal) x0 x1 x3 x4 x5 (ix2 r j) = gate x0 x1 x3 x4 x5 r (col1 j) := by
  rw [val_main_v9_apply, show idx_main_v9 (ix2 r j) = ix2 r (col1 j) from funext fun a => by
    match a with | ⟨0, _⟩ => rfl | ⟨1, _⟩ => rfl]
  exact preact_apply x0 x1 x3 x4 x5 r (col1 j)
/-- Band 2 (candidate). -/
theorem band2_apply (r : Fin 8192) (j : Fin 2048) :
    val_main_v10 (F := Ideal) x0 x1 x3 x4 x5 (ix2 r j) = gate x0 x1 x3 x4 x5 r (col2 j) := by
  rw [val_main_v10_apply, show idx_main_v10 (ix2 r j) = ix2 r (col2 j) from funext fun a => by
    match a with | ⟨0, _⟩ => rfl | ⟨1, _⟩ => rfl]
  exact preact_apply x0 x1 x3 x4 x5 r (col2 j)
/-- Band 3 (output gate). -/
theorem band3_apply (r : Fin 8192) (j : Fin 2048) :
    val_main_v11 (F := Ideal) x0 x1 x3 x4 x5 (ix2 r j) = gate x0 x1 x3 x4 x5 r (col3 j) := by
  rw [val_main_v11_apply, show idx_main_v11 (ix2 r j) = ix2 r (col3 j) from funext fun a => by
    match a with | ⟨0, _⟩ => rfl | ⟨1, _⟩ => rfl]
  exact preact_apply x0 x1 x3 x4 x5 r (col3 j)

/-- The reference's constant `1.0` is the extended real `1`. -/
theorem one_spelt : FloatOps.ofBits (F := Ideal) .f32 0x3F800000#32 = (1 : EReal) := ofBits_one

/-- The reference's second result is the specification's new cell state: with `1.0` read as `1` the quotient
    `1 / (1 + exp (−a))` is the logistic function by definition, and every other operation is the specification's own. -/
theorem cell_eq : val_main_v36 (F := Ideal) x0 x1 x2 x3 x4 x5 = cell x0 x1 x2 x3 x4 x5 := by
  funext i
  obtain ⟨r, j, rfl⟩ : ∃ (r : Fin 8192) (j : Fin 2048), i = ix2 r j := ⟨i 0, i 1, eq_ix2 i⟩
  simp only [val_main_v36_apply, val_main_v31_apply, val_main_v35_apply, val_main_v34_apply, val_main_v33_apply,
    val_main_v30_apply, val_main_v23_apply, val_main_v17_apply, val_main_v21_apply, val_main_v15_apply,
    val_main_v19_apply, val_main_v13_apply, val_main_v18_apply, val_main_v12_apply,
    val_main_v32_apply, val_main_v22_apply, val_main_v20_apply, val_main_v16_apply, val_main_v14_apply,
    val_main_cst_apply, val_main_cst_0_apply, val_main_cst_1_apply, val_main_cst_2_apply, val_main_cst_5_apply,
    band0_apply, band1_apply, band2_apply]
  simp only [one_spelt]
  rfl

/-- The reference's first result is the specification's new hidden state. -/
theorem hidden_eq : val_main_v38 (F := Ideal) x0 x1 x2 x3 x4 x5 = hidden x0 x1 x2 x3 x4 x5 := by
  funext i
  obtain ⟨r, j, rfl⟩ : ∃ (r : Fin 8192) (j : Fin 2048), i = ix2 r j := ⟨i 0, i 1, eq_ix2 i⟩
  rw [val_main_v38_apply, val_main_v37_apply, cell_eq]
  simp only [val_main_v29_apply, val_main_v27_apply, val_main_v25_apply, val_main_v24_apply,
    val_main_v28_apply, val_main_v26_apply, val_main_cst_3_apply, val_main_cst_4_apply, band3_apply, one_spelt]
  rfl

end Cert.LstmRef

end
-- ==== Proof.lean ====
/-
  The certificate of an LSTM cell whose input gate is capped by the complement of the forget gate: a tiled kernel
  (a `16 × 8` grid over batch rows and hidden units, all four gates' slabs of the stacked weights at each point, the
  2048 contracted positions in one product per gate and operand) against the plain array program
  `gates = x · wihᵀ + h · whhᵀ + b`, split into four bands.

  At the extended reals both programs compute, at batch row `r` and hidden unit `j`,
      c' = σ(g₁) · c + min (1 − σ(g₁)) (σ(g₀)) · tanh g₂,     h' = σ(g₃) · tanh c',
  with `g_k = Σ x[r,·] · wih[k·2048 + j,·] + Σ h[r,·] · whh[k·2048 + j,·] + b[k·2048 + j]` (Proof/Spec.lean). The
  kernel's side is Proof/Block.lean (one grid point, index by index), Proof/Inputs.lean (the blocks as parts of the
  arrays) and Proof/Run.lean (the blocks tile the results); the reference's side is Proof/RefSpec.lean. The sums are
  the same sums term by term, the format changes are the identity, the kernel's logistic operation is the reference's
  `1 / (1 + exp (−·))` by definition, so no algebraic law and no use of the inputs' finiteness is needed. The three
  frames are the generated frame runs (the reference's from its generated run), and the idealization rewrote nothing.
-/
import proofs.«159191_j78159814853182_1_alg».proof.Defs
import proofs.«159191_j78159814853182_1_alg».proof.Proof.Gen.Kernel
import proofs.«159191_j78159814853182_1_alg».proof.Proof.Gen.Kernel.Skeleton
import proofs.«159191_j78159814853182_1_alg».proof.Proof.Gen.Kernel.Launch
import proofs.«159191_j78159814853182_1_alg».proof.Proof.Gen.Kernel.Points
import proofs.«159191_j78159814853182_1_alg».proof.Proof.Gen.Kernel.Frame
import proofs.«159191_j78159814853182_1_alg».proof.Proof.Gen.KernelIdeal
import proofs.«159191_j78159814853182_1_alg».proof.Proof.Gen.KernelIdeal.Skeleton
import proofs.«159191_j78159814853182_1_alg».proof.Proof.Gen.KernelIdeal.Launch
import proofs.«159191_j78159814853182_1_alg».proof.Proof.Gen.KernelIdeal.Points
import proofs.«159191_j78159814853182_1_alg».proof.Proof.Gen.KernelIdeal.Frame
import proofs.«159191_j78159814853182_1_alg».proof.Proof.Gen.ReferenceIdeal
import proofs.«159191_j78159814853182_1_alg».proof.Proof.Gen.Pre_finite_inputs
import proofs.«159191_j78159814853182_1_alg».proof.Proof.Gen.KernelIdeal.Value
import proofs.«159191_j78159814853182_1_alg».proof.Proof.Gen.ReferenceIdeal.Run
import proofs.«159191_j78159814853182_1_alg».proof.Proof.Gen.ReferenceIdeal.Read
import proofs.«159191_j78159814853182_1_alg».proof.Proof.Run
import proofs.«159191_j78159814853182_1_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the new hidden states and the new cell states of the specification, of arguments that agree. -/
theorem algebraic : Cert.algebraic_KernelIdeal_ReferenceIdeal := by
  intro m ρ m' ρ' _ hagree
  refine ⟨fun c => Cert.LstmRun.hiddenArr m c, fun c => Cert.LstmRun.cellArr m c, Cert.LstmRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5⟩ := hagree c
    rw [Cert.ReferenceIdeal.Read.val_main_v38_eq, Cert.LstmRef.hidden_eq, h0, h1, h2, h3, h4, h5]
  · obtain ⟨h0, h1, h2, h3, h4, h5⟩ := hagree c
    rw [Cert.ReferenceIdeal.Read.val_main_v36_eq, Cert.LstmRef.cell_eq, h0, h1, h2, h3, h4, h5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
